-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x64 : Shape := ⟨3, ![50000, 1, 64]⟩
abbrev S2x800000 : Shape := ⟨2, ![2, 800000]⟩
abbrev S1x4x64x64 : Shape := ⟨4, ![1, 4, 64, 64]⟩
abbrev S_ : Shape := ⟨0, ![]⟩

class Facts : Prop where
  bcast_S_S50000x1x64 : S_.BroadcastsInDim S50000x1x64 (![] : Fin 0 → Fin S50000x1x64.rank)
  reducesTo_S50000x1x64_S_d0_1_2 : S50000x1x64.ReducesTo [0, 1, 2] S_
  h_S_ : 0 < S_.numel
  bcast_S_S1x4x64x64 : S_.BroadcastsInDim S1x4x64x64 (![] : Fin 0 → Fin S1x4x64x64.rank)
  reducesTo_S1x4x64x64_S_d0_1_2_3 : S1x4x64x64.ReducesTo [0, 1, 2, 3] S_

variable [Facts]

def fn {F : FTy → Type} [FloatOps F] (main_arg0 : FVec F S50000x1x64 .f32) (main_arg1 : IVec S2x800000 32) (main_arg2 : FVec F S1x4x64x64 .f32) : IVec S_ 1 :=
  let main_v0 : FVec F S50000x1x64 .f32 := Host.absf main_arg0
  let main_cst : FVec F S_ .f32 := constant S_ .f32 0x7F800000#32
  let main_v1 : FVec F S50000x1x64 .f32 := broadcastInDim S50000x1x64 ![] bcast_S_S50000x1x64 main_cst
  let main_v2 : IVec S50000x1x64 1 := cmpf .olt main_v0 main_v1
  let main_c : IVec S_ 1 := constantI S_ 1 1#1
  let main_v3 : IVec S_ 1 := (fun x v => Host.reduce IntOp.andi x v reducesTo_S50000x1x64_S_d0_1_2 h_S_) main_v2 main_c
  let main_v4 : FVec F S1x4x64x64 .f32 := Host.absf main_arg2
  let main_cst_0 : FVec F S_ .f32 := constant S_ .f32 0x7F800000#32
  let main_v5 : FVec F S1x4x64x64 .f32 := broadcastInDim S1x4x64x64 ![] bcast_S_S1x4x64x64 main_cst_0
  let main_v6 : IVec S1x4x64x64 1 := cmpf .olt main_v4 main_v5
  let main_c_1 : IVec S_ 1 := constantI S_ 1 1#1
  let main_v7 : IVec S_ 1 := (fun x v => Host.reduce IntOp.andi x v reducesTo_S1x4x64x64_S_d0_1_2_3 h_S_) main_v6 main_c_1
  let main_v8 : IVec S_ 1 := andi main_v3 main_v7
  main_v8
-- ==== Kernel.lean ====
abbrev S50000x1x64 : Shape := ⟨3, ![50000, 1, 64]⟩
abbrev S2x800000 : Shape := ⟨2, ![2, 800000]⟩
abbrev S1x4x64x64 : Shape := ⟨4, ![1, 4, 64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x1x64 : Shape := ⟨3, ![800000, 1, 64]⟩
abbrev S800000x64 : Shape := ⟨2, ![800000, 64]⟩
abbrev S4x64x64 : Shape := ⟨3, ![4, 64, 64]⟩
abbrev S800000x4 : Shape := ⟨2, ![800000, 4]⟩
abbrev S8000x64 : Shape := ⟨2, ![8000, 64]⟩
abbrev S8000x4 : Shape := ⟨2, ![8000, 4]⟩
abbrev S1x64x64 : Shape := ⟨3, ![1, 64, 64]⟩
abbrev S64x64 : Shape := ⟨2, ![64, 64]⟩
abbrev S8000 : Shape := ⟨1, ![8000]⟩
abbrev S8000x1 : Shape := ⟨2, ![8000, 1]⟩
abbrev S50000x4 : Shape := ⟨2, ![50000, 4]⟩
abbrev S800000x4x1 : Shape := ⟨3, ![800000, 4, 1]⟩

abbrev nBuf : Space → Nat
  | .hbm => 52
  | .vmem => 7
  | .smem => 0
  | _ => 0

abbrev bufTy : (tb : Table) → Fin (tcTables nBuf tb) → BufTy
  | .hbm, ⟨0, _⟩ => ⟨S50000x1x64, .f32⟩
  | .hbm, ⟨1, _⟩ => ⟨S2x800000, .i32⟩
  | .hbm, ⟨2, _⟩ => ⟨S1x4x64x64, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x1x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x1x64, .f32⟩
  | .hbm, ⟨25, _⟩ => ⟨S800000x64, .f32⟩
  | .hbm, ⟨26, _⟩ => ⟨S800000x64, .f32⟩
  | .hbm, ⟨27, _⟩ => ⟨S4x64x64, .f32⟩
  | .hbm, ⟨28, _⟩ => ⟨S800000x4, .f32⟩
  | .hbm, ⟨29, _⟩ => ⟨S_, .f32⟩
  | .hbm, ⟨30, _⟩ => ⟨S_, .f32⟩
  | .hbm, ⟨31, _⟩ => ⟨S800000x4, .f32⟩
  | .hbm, ⟨32, _⟩ => ⟨S800000x4, .f32⟩
  | .hbm, ⟨33, _⟩ => ⟨S800000x4, .f32⟩
  | .hbm, ⟨34, _⟩ => ⟨S_, .f32⟩
  | .hbm, ⟨35, _⟩ => ⟨S50000x4, .f32⟩
  | .hbm, ⟨36, _⟩ => ⟨S800000x1, .i32⟩
  | .hbm, ⟨37, _⟩ => ⟨S50000x4, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x4, .f32⟩
  | .hbm, ⟨47, _⟩ => ⟨S_, .f32⟩
  | .hbm, ⟨48, _⟩ => ⟨S800000x4, .f32⟩
  | .hbm, ⟨49, _⟩ => ⟨S800000x4, .f32⟩
  | .hbm, ⟨50, _⟩ => ⟨S800000x4, .f32⟩
  | .hbm, ⟨51, _⟩ => ⟨S800000x4x1, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S4x64x64, .f32⟩
  | .local _ .vmem, ⟨5, _⟩ => ⟨S8000x4, .f32⟩
  | .local _ .vmem, ⟨6, _⟩ => ⟨S8000x4, .f32⟩
  | _, _ => ⟨S50000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x1x64_S800000x64 : S800000x1x64.ShapeCasts S800000x64
  shapeCasts_S1x4x64x64_S4x64x64 : S1x4x64x64.ShapeCasts S4x64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S4x64x64_S4x64x64_0_0_0 : ∀ a, (![0, 0, 0] : Fin 3 → Nat) a + S4x64x64.size a ≤ S4x64x64.size a
  h_S4x64x64 : 0 < S4x64x64.numel
  shapeCasts_S4x64x64_S4x64x64 : S4x64x64.ShapeCasts S4x64x64
  slices_S4x64x64_o0_0_0_S1x64x64 : S4x64x64.Slices ![0, 0, 0] S1x64x64
  shapeCasts_S1x64x64_S64x64 : S1x64x64.ShapeCasts S64x64
  transposes_S64x64_p1_0_S64x64 : S64x64.Transposes [1, 0] S64x64
  reduces_S8000x64_S8000 : S8000x64.Reduces [1] S8000
  shapeCasts_S8000_S8000x1 : S8000.ShapeCasts S8000x1
  slices_S4x64x64_o1_0_0_S1x64x64 : S4x64x64.Slices ![1, 0, 0] S1x64x64
  slices_S4x64x64_o2_0_0_S1x64x64 : S4x64x64.Slices ![2, 0, 0] S1x64x64
  slices_S4x64x64_o3_0_0_S1x64x64 : S4x64x64.Slices ![3, 0, 0] S1x64x64
  concatenates_S8000x1_S8000x1_S8000x1_S8000x1_S8000x4_d1 : Shape.Concatenates [S8000x1, S8000x1, S8000x1, S8000x1] S8000x4 1
  inb_S8000x4_S8000x4_0_0 : ∀ a, (![0, 0] : Fin 2 → Nat) a + S8000x4.size a ≤ S8000x4.size a
  h_S8000x4 : 0 < S8000x4.numel
  reducesTo_S800000x4_S_d0_1 : S800000x4.ReducesTo [0, 1] S_
  h_S_ : 0 < S_.numel
  bcast_S_S800000x4 : S_.BroadcastsInDim S800000x4 (![] : Fin 0 → Fin S800000x4.rank)
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  gather_S50000x1x64_S800000x1_S800000x1x64_12_0_n_n_0_1_1164_wf : GatherDims.WF S50000x1x64 S800000x1 S800000x1x64 [1, 2] [0] [] [0] [] 1 ![1, 1, 64]
  dot_S8000x64_S64x64_S8000x64_1_0_0_1_n_n_wf : DotDims.WF S8000x64 S64x64 S8000x64 [1] [0] [0] [1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S800000x4.size a
  hwx0_3 : ∀ i : grid0.Coords, EltTy.bits .f32 = 32 ∨ (Rect.block (s := S800000x4) S8000x4.size (cc0_transform_3 i) (hinb0_3 i)).WholeWords (EltTy.packing .f32)

variable [Facts₀]

def gather_S50000x1x64_S800000x1_S800000x1x64_12_0_n_n_0_1_1164 : GatherDims S50000x1x64 S800000x1 S800000x1x64 where
  offsetDims := [1, 2]
  collapsedSliceDims := [0]
  operandBatchingDims := []
  startIndicesBatchingDims := []
  startIndexMap := [0]
  indexVectorDim := 1
  sliceSizes := ![1, 1, 64]
  wf := gather_S50000x1x64_S800000x1_S800000x1x64_12_0_n_n_0_1_1164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf

abbrev win0_0 : Pipeline.Window sig grid0 :=
  Pipeline.Window.ofSpec (Memref.whole main_v19) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x1x64 : Shape := ⟨3, ![50000, 1, 64]⟩
abbrev S2x800000 : Shape := ⟨2, ![2, 800000]⟩
abbrev S1x4x64x64 : Shape := ⟨4, ![1, 4, 64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x1x64 : Shape := ⟨3, ![800000, 1, 64]⟩
abbrev S800000x64 : Shape := ⟨2, ![800000, 64]⟩
abbrev S4x64x64 : Shape := ⟨3, ![4, 64, 64]⟩
abbrev S800000x4x64 : Shape := ⟨3, ![800000, 4, 64]⟩
abbrev S800000x4 : Shape := ⟨2, ![800000, 4]⟩
abbrev S50000x4 : Shape := ⟨2, ![50000, 4]⟩
abbrev S800000x4x1 : Shape := ⟨3, ![800000, 4, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x1x64, .f32⟩
  | .hbm, ⟨1, _⟩ => ⟨S2x800000, .i32⟩
  | .hbm, ⟨2, _⟩ => ⟨S1x4x64x64, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x1x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x1x64, .f32⟩
  | .hbm, ⟨25, _⟩ => ⟨S800000x64, .f32⟩
  | .hbm, ⟨26, _⟩ => ⟨S4x64x64, .f32⟩
  | .hbm, ⟨27, _⟩ => ⟨S800000x4x64, .f32⟩
  | .hbm, ⟨28, _⟩ => ⟨S800000x4x64, .f32⟩
  | .hbm, ⟨29, _⟩ => ⟨S800000x4x64, .f32⟩
  | .hbm, ⟨30, _⟩ => ⟨S_, .f32⟩
  | .hbm, ⟨31, _⟩ => ⟨S800000x4, .f32⟩
  | .hbm, ⟨32, _⟩ => ⟨S_, .f32⟩
  | .hbm, ⟨33, _⟩ => ⟨S_, .f32⟩
  | .hbm, ⟨34, _⟩ => ⟨S800000x4, .f32⟩
  | .hbm, ⟨35, _⟩ => ⟨S800000x4, .i1⟩
  | .hbm, ⟨36, _⟩ => ⟨S_, .f32⟩
  | .hbm, ⟨37, _⟩ => ⟨S800000x4, .f32⟩
  | .hbm, ⟨38, _⟩ => ⟨S800000x4, .f32⟩
  | .hbm, ⟨39, _⟩ => ⟨S800000x4, .f32⟩
  | .hbm, ⟨40, _⟩ => ⟨S_, .f32⟩
  | .hbm, ⟨41, _⟩ => ⟨S_, .f32⟩
  | .hbm, ⟨42, _⟩ => ⟨S800000x4, .f32⟩
  | .hbm, ⟨43, _⟩ => ⟨S800000x4, .f32⟩
  | .hbm, ⟨44, _⟩ => ⟨S800000x4, .f32⟩
  | .hbm, ⟨45, _⟩ => ⟨S_, .f32⟩
  | .hbm, ⟨46, _⟩ => ⟨S50000x4, .f32⟩
  | .hbm, ⟨47, _⟩ => ⟨S800000x1, .i32⟩
  | .hbm, ⟨48, _⟩ => ⟨S50000x4, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x4, .f32⟩
  | .hbm, ⟨58, _⟩ => ⟨S_, .f32⟩
  | .hbm, ⟨59, _⟩ => ⟨S800000x4, .f32⟩
  | .hbm, ⟨60, _⟩ => ⟨S800000x4, .f32⟩
  | .hbm, ⟨61, _⟩ => ⟨S800000x4, .f32⟩
  | .hbm, ⟨62, _⟩ => ⟨S800000x4x1, .f32⟩
  | _, _ => ⟨S50000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_cst_3 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x1x64_S800000x64 : S800000x1x64.ShapeCasts S800000x64
  shapeCasts_S1x4x64x64_S4x64x64 : S1x4x64x64.ShapeCasts S4x64x64
  bcast_S800000x1x64_S800000x4x64_0_1_2 : S800000x1x64.BroadcastsInDim S800000x4x64 (![0, 1, 2] : Fin 3 → Fin S800000x4x64.rank)
  reducesTo_S800000x4x64_S800000x4_d2 : S800000x4x64.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  gather_S50000x1x64_S800000x1_S800000x1x64_12_0_n_n_0_1_1164_wf : GatherDims.WF S50000x1x64 S800000x1 S800000x1x64 [1, 2] [0] [] [0] [] 1 ![1, 1, 64]
  dot_S800000x64_S4x64x64_S800000x4x64_1_2_0_01_n_n_wf : DotDims.WF S800000x64 S4x64x64 S800000x4x64 [1] [2] [0] [0, 1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]

variable [Facts₀]

def gather_S50000x1x64_S800000x1_S800000x1x64_12_0_n_n_0_1_1164 : GatherDims S50000x1x64 S800000x1 S800000x1x64 where
  offsetDims := [1, 2]
  collapsedSliceDims := [0]
  operandBatchingDims := []
  startIndicesBatchingDims := []
  startIndexMap := [0]
  indexVectorDim := 1
  sliceSizes := ![1, 1, 64]
  wf := gather_S50000x1x64_S800000x1_S800000x1x64_12_0_n_n_0_1_1164_wf
def dot_S800000x64_S4x64x64_S800000x4x64_1_2_0_01_n_n : DotDims S800000x64 S4x64x64 S800000x4x64 where
  lhsContracting := [1]
  rhsContracting := [2]
  lhsNonContracting := [0]
  rhsNonContracting := [0, 1]
  lhsBatch := []
  rhsBatch := []
  wf := dot_S800000x64_S4x64x64_S800000x4x64_1_2_0_01_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf

class Facts : Prop extends Facts₀ where

variable [Facts]
-- ==== Proof.Spec.lean ====
/-
  The scores both programs compute, as one function of three arrays, index by index on the extended reals.

  For an edge `e` and a head `h`, with `xs` the source rows, `xt` the target rows and `w` the four metric
  matrices, the bilinear form is  Σ_f xs(e,f) · Σ_g xt(e,g) · w(h,f,g),  and the score is the leaky rectifier of
  it: the form itself where it is at least zero, and 0.2 (as the single-precision word) times it elsewhere.
-/
import Idealize.ShloMosaic.PureOps.Ideal
import Idealize.ShloMosaic.Lib.ValueIdx

noncomputable section

namespace Cert.Spec

open Idealize.ShloMosaic Idealize.ShloMosaic.ValueIdx

/-- The leaky rectifier on one extended real: `v` where `v ≥ 0`, else the slope word times `v`. -/
def leaky (v : EReal) : EReal :=
  Scalar.select (FloatOps.cmpf (F := Ideal) (φ := .f32) .oge v (Ideal.ofBits .f32 0x00000000#32)) v
    (Ideal.ofBits .f32 0x3E4CCCCD#32 * v)

/-- The bilinear form of edge `e` and head `h`: Σ_f xs(e,f) · Σ_g xt(e,g) · w(h,f,g). -/
def form {n : Nat} (xs xt : (⟨2, ![n, 64]⟩ : Shape).Idx → EReal) (w : (⟨3, ![4, 64, 64]⟩ : Shape).Idx → EReal)
    (e : Fin n) (h : Fin 4) : EReal :=
  ∑ f : Fin 64, xs (ix2 e f) * ∑ g : Fin 64, xt (ix2 e g) * w (ix3 h f g)

/-- The score array over `n` edges and four heads. -/
def score {n : Nat} (xs xt : (⟨2, ![n, 64]⟩ : Shape).Idx → EReal) (w : (⟨3, ![4, 64, 64]⟩ : Shape).Idx → EReal) :
    (⟨2, ![n, 4]⟩ : Shape).Idx → EReal :=
  fun j => leaky (form xs xt w (j 0) (j 1))

end Cert.Spec

end
-- ==== Proof.KerTerms.lean ====
/-
  The kernel program's values named: the index vectors cut out of the edge table, the gathered feature rows the region reads, the score array the region leaves (the specification's function of those rows), and the neighbourhood softmax that follows it.
-/
import proofs.«109078_j61873298866223_1_alg».proof.Proof.Gen.KernelIdeal
import proofs.«109078_j61873298866223_1_alg».proof.Proof.Spec

noncomputable section

namespace Cert.KernelIdeal.Terms

open Idealize.ShloMosaic Idealize.SL.Sem Cert.KernelIdeal Cert.KernelIdeal.Gen

/-- The target row of the edge table, as a vector of 800000 words. -/
def trg (a1 : IVec S2x800000 32) : IVec S800000 32 :=
  shapeCast S800000 (extractStridedSlice S1x800000 ![0, 0] a1 slices_S2x800000_S1x800000_0_0) shapeCasts_S1x800000_S800000

/-- The source row of the edge table. -/
def src (a1 : IVec S2x800000 32) : IVec S800000 32 :=
  shapeCast S800000 (extractStridedSlice S1x800000 ![1, 0] a1 slices_S2x800000_S1x800000_1_0) shapeCasts_S1x800000_S800000

/-- A node index made non-negative (50000 added where it is below zero), as a column of start indices. -/
def norm (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The source nodes' feature rows, one per edge. -/
def xsrc (a0 : FVec Ideal S50000x1x64 .f32) (a1 : IVec S2x800000 32) : FVec Ideal S800000x1x64 .f32 :=
  Host.gather gather_S50000x1x64_S800000x1_S800000x1x64_12_0_n_n_0_1_1164 a0 (norm (src a1))

/-- The same rows as a matrix of 800000 rows. -/
def xsrc2 (a0 : FVec Ideal S50000x1x64 .f32) (a1 : IVec S2x800000 32) : FVec Ideal S800000x64 .f32 :=
  shapeCast S800000x64 (xsrc a0 a1) shapeCasts_S800000x1x64_S800000x64

/-- The target nodes' feature rows, one per edge, as a matrix. -/
def xtrg2 (a0 : FVec Ideal S50000x1x64 .f32) (a1 : IVec S2x800000 32) : FVec Ideal S800000x64 .f32 :=
  shapeCast S800000x64 (Host.gather gather_S50000x1x64_S800000x1_S800000x1x64_12_0_n_n_0_1_1164 a0 (norm (trg a1)))
    shapeCasts_S800000x1x64_S800000x64

/-- The four metric matrices. -/
def w3 (a2 : FVec Ideal S1x4x64x64 .f32) : FVec Ideal S4x64x64 .f32 :=
  shapeCast S4x64x64 a2 shapeCasts_S1x4x64x64_S4x64x64

/-- The exponentials of the scores less their global maximum. -/
def expo (s : FVec Ideal S800000x4 .f32) : FVec Ideal S800000x4 .f32 :=
  Host.exp (subf s (broadcastInDim S800000x4 ![] bcast_S_S800000x4
    (Host.reduce FloatOps.maximumf s (constant (F := Ideal) S_ .f32 0xFF800000#32) reducesTo_S800000x4_S_d0_1 h_S_)))

/-- The neighbourhood softmax of a score array `s` grouped by the target nodes `t`: each exponential over the sum
    of the exponentials of the edges with the same target (plus the constant 1e-16), with a trailing unit axis. -/
def tail (s : FVec Ideal S800000x4 .f32) (t : IVec S800000 32) : FVec Ideal S800000x4x1 .f32 :=
  broadcastInDim S800000x4x1 ![0, 1] bcast_S800000x4_S800000x4x1_0_1
    (Host.divf (expo s)
      (addf
        (Host.gather gather_S50000x4_S800000x1_S800000x4_1_0_n_n_0_1_14
          (Host.scatterAdd scatter_S50000x4_S800000x1_S800000x4_1_0_0_1
            (broadcastInDim S50000x4 ![] bcast_S_S50000x4 (constant (F := Ideal) S_ .f32 0x00000000#32))
            (broadcastInDim S800000x1 ![0] bcast_S800000_S800000x1_0 t) (expo s))
          (norm t))
        (broadcastInDim S800000x4 ![] bcast_S_S800000x4 (constant (F := Ideal) S_ .f32 0x24E69595#32))))

/-- The score array the region leaves: the specification's scores of the gathered rows and the metric matrices. -/
def scoresK (a0 : FVec Ideal S50000x1x64 .f32) (a1 : IVec S2x800000 32) (a2 : FVec Ideal S1x4x64x64 .f32) :
    FVec Ideal S800000x4 .f32 :=
  Cert.Spec.score (n := 800000) (xsrc2 a0 a1) (xtrg2 a0 a1) (w3 a2)

/-- The kernel program's first result. -/
def out (a0 : FVec Ideal S50000x1x64 .f32) (a1 : IVec S2x800000 32) (a2 : FVec Ideal S1x4x64x64 .f32) :
    FVec Ideal S800000x4x1 .f32 :=
  tail (scoresK a0 a1 a2) (trg a1)

end Cert.KernelIdeal.Terms

end
-- ==== Proof.KerBody.lean ====
/-
  What the kernel's body leaves in its output block, read index by index at the extended reals: for row `r` of the
  block and head `h`, the leaky rectifier of  Σ_f x0(r,f) · Σ_g x1(r,g) · x2(h,f,g)  — the specification's score of
  the three input blocks.
-/
import proofs.«109078_j61873298866223_1_alg».proof.Proof.Gen.KernelIdeal.Frame
import proofs.«109078_j61873298866223_1_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Body

open Idealize.ShloMosaic Idealize.ShloMosaic.ValueIdx Idealize.SL.Sem Cert.KernelIdeal Cert.KernelIdeal.Gen

/-! ## The contraction's operand indices, axis by axis

At result index `i` and contraction index `q` the left operand is read at (i₀, q) and the right one at (q, i₁). -/

theorem lhs_axis0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl

theorem lhs_axis1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q

theorem rhs_axis0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q

theorem rhs_axis1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- The matrix product into the zero block, read at (r, c): Σ_k A(r,k) · B(k,c). -/
theorem matmul_at (A : FVec Ideal S8000x64 .bf16) (B : FVec Ideal S64x64 .bf16) (r : Fin 8000) (c : Fin 64) :
    matmul (F := Ideal) dot_S8000x64_S64x64_S8000x64_1_0_0_1_n_n none A B (constant (F := Ideal) S8000x64 .f32 0x00000000#32) (ix2 r c)
      = ∑ k : Fin 64, A (ix2 r k) * B (ix2 k c) := by
  show FloatOps.matmul dot_S8000x64_S64x64_S8000x64_1_0_0_1_n_n none A B (constant (F := Ideal) S8000x64 .f32 0x00000000#32) (ix2 r c) = _
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 r c) ((contrEquiv1 dot_S8000x64_S64x64_S8000x64_1_0_0_1_n_n 64 rfl rfl).symm k) = ix2 r k :=
    funext fun a => Fin.ext (by
      match a with
      | ⟨0, _⟩ => exact lhs_axis0 _ _
      | ⟨1, _⟩ => exact (lhs_axis1 _ _).trans hk)
  have er : dot_S8000x64_S64x64_S8000x64_1_0_0_1_n_n.rhsIdx (ix2 r c) ((contrEquiv1 dot_S8000x64_S64x64_S8000x64_1_0_0_1_n_n 64 rfl rfl).symm k) = ix2 k c :=
    funext fun a => Fin.ext (by
      match a with
      | ⟨0, _⟩ => exact (rhs_axis0 _ _).trans hk
      | ⟨1, _⟩ => exact rhs_axis1 _ _)
  rw [el, er]

/-! ## One head's column -/

/-- One head's column, for the metric tensor sliced at offsets `off` to one matrix W(f, g) = x2(off₀, f, g): the
    [8000, 1] block whose entry (r, 0) is Σ_f x0(r,f) · Σ_g x1(r,g) · Wᵀ(g,f) — the slice's unit axis dropped, W transposed,
    x1 contracted with the transpose's first axis, the product with x0 summed along each row. -/
def col (x0 x1 : Vec Ideal S8000x64 .f32) (x2 : Vec Ideal S4x64x64 .f32) (off : Fin 3 → Nat)
    (hs : S4x64x64.Slices off S1x64x64) : FVec Ideal S8000x1 .f32 :=
  shapeCast S8000x1
    (multiReduction (F := Ideal) .add [1] S8000
      (mulf (shapeCast S8000x64 x0 shapeCasts_S8000x64_S8000x64)
        (matmul (F := Ideal) dot_S8000x64_S64x64_S8000x64_1_0_0_1_n_n none
          (truncf .bf16 (shapeCast S8000x64 x1 shapeCasts_S8000x64_S8000x64) bitsLt_bf16_f32)
          (transpose S64x64 [1, 0]
            (truncf .bf16 (shapeCast S64x64 (extractStridedSlice S1x64x64 off (shapeCast S4x64x64 x2 shapeCasts_S4x64x64_S4x64x64) hs) shapeCasts_S1x64x64_S64x64) bitsLt_bf16_f32)
            transposes_S64x64_p1_0_S64x64)
          (constant (F := Ideal) S8000x64 .f32 0x00000000#32)))
      0x00000000#32 reduces_S8000x64_S8000 (.inl rfl) rfl)
    shapeCasts_S8000_S8000x1

/-- Sliced at head `h`, the column at (r, 0) is Σ_f x0(r,f) · Σ_g x1(r,g) · x2(h,f,g). -/
theorem col_at (x0 x1 : Vec Ideal S8000x64 .f32) (x2 : Vec Ideal S4x64x64 .f32) (off : Fin 3 → Nat)
    (hs : S4x64x64.Slices off S1x64x64) (h : Fin 4) (hoff : off = ![h.val, 0, 0]) (r : Fin 8000) (u : Fin 1) :
    col x0 x1 x2 off hs (ix2 r u) = ∑ f : Fin 64, x0 (ix2 r f) * ∑ g : Fin 64, x1 (ix2 r g) * x2 (ix3 h f g) := by
  unfold col
  refine (shapeCast_apply _ shapeCasts_S8000_S8000x1 (ix2 r u) (ix1 r) ?_).trans ?_
  · rw [Shape.rowMajor_val_one, Shape.rowMajor_val_two]
    show r.val = r.val * 1 + u.val
    omega
  refine (Ideal.multiReduction_add_single _ 0x00000000#32 reduces_S8000x64_S8000 (.inl rfl) rfl (ix1 r)).trans ?_
  show ∑ f : Fin 64, _ = _
  refine Finset.sum_congr rfl fun f _ => ?_
  have hl : reduces_S8000x64_S8000.lift (ix1 r) f = ix2 r f :=
    funext fun a => Fin.ext (by match a with | ⟨0, _⟩ => rfl | ⟨1, _⟩ => rfl)
  rw [hl, mulf_apply, shapeCast_self, shapeCast_self, matmul_at]
  congr 1
  refine Finset.sum_congr rfl fun g _ => ?_
  rw [truncf_apply, transpose_ix2_apply, truncf_apply, shapeCast_1ab_ab_apply, shapeCast_self]
  congr 1
  refine extractStridedSlice_apply off x2 hs _ (ix3 h f g) fun a => ?_
  subst hoff
  match a with
  | ⟨0, _⟩ => show h.val = h.val + 0; omega
  | ⟨1, _⟩ => show f.val = 0 + f.val; omega
  | ⟨2, _⟩ => show g.val = 0 + g.val; omega

/-! ## The four columns side by side -/

/-- The concatenated block is the four heads' columns, the metric tensor sliced at head 0, 1, 2, 3. -/
theorem pay2_eq (x0 x1 : Vec Ideal S8000x64 .f32) (x2 : Vec Ideal S4x64x64 .f32) :
    k0_pay2 (F := Ideal) x0 x1 x2 = concatenate S8000x4 1
      [⟨S8000x1, col x0 x1 x2 ![0, 0, 0] slices_S4x64x64_o0_0_0_S1x64x64⟩,
       ⟨S8000x1, col x0 x1 x2 ![1, 0, 0] slices_S4x64x64_o1_0_0_S1x64x64⟩,
       ⟨S8000x1, col x0 x1 x2 ![2, 0, 0] slices_S4x64x64_o2_0_0_S1x64x64⟩,
       ⟨S8000x1, col x0 x1 x2 ![3, 0, 0] slices_S4x64x64_o3_0_0_S1x64x64⟩]
      concatenates_S8000x1_S8000x1_S8000x1_S8000x1_S8000x4_d1 := rfl

/-- Four unit-width columns side by side, read at (r, k): column `k` at (r, 0). -/
theorem concat4_at (c0 c1 c2 c3 : FVec Ideal S8000x1 .f32) (r : Fin 8000) (k : Nat) (hk : k < 4)
    (ck : FVec Ideal S8000x1 .f32)
    (hck : ([⟨S8000x1, c0⟩, ⟨S8000x1, c1⟩, ⟨S8000x1, c2⟩, ⟨S8000x1, c3⟩] : List ((s : Shape) × (s.Idx → EReal)))[k] = ⟨S8000x1, ck⟩)
    (hpre : (((([⟨S8000x1, c0⟩, ⟨S8000x1, c1⟩, ⟨S8000x1, c2⟩, ⟨S8000x1, c3⟩] : List ((s : Shape) × (s.Idx → EReal))).take k).map (·.1)).map
      (fun s => if h : s.rank = S8000x4.rank then s.size ((1 : Fin S8000x4.rank).cast h.symm) else 0)).sum = k) :
    concatenate S8000x4 1 [⟨S8000x1, c0⟩, ⟨S8000x1, c1⟩, ⟨S8000x1, c2⟩, ⟨S8000x1, c3⟩]
      concatenates_S8000x1_S8000x1_S8000x1_S8000x1_S8000x4_d1 (ix2 r (⟨k, hk⟩ : Fin 4)) = ck (ix2 r (0 : Fin 1)) :=
  concatenate_apply_piece (1 : Fin S8000x4.rank) [⟨S8000x1, c0⟩, ⟨S8000x1, c1⟩, ⟨S8000x1, c2⟩, ⟨S8000x1, c3⟩]
    concatenates_S8000x1_S8000x1_S8000x1_S8000x1_S8000x4_d1 (ix2 r (⟨k, hk⟩ : Fin 4))
    k hk S8000x1 ck hck rfl k hpre (ix2 r (0 : Fin 1))
    (fun b hb => by
      match b with
      | ⟨0, _⟩ => rfl
      | ⟨1, _⟩ => exact absurd (Fin.ext rfl) hb)
    (Nat.add_zero k)

/-- The concatenated block at (r, h) is the bilinear form of row r and head h. -/
theorem pay2_at (x0 x1 : Vec Ideal S8000x64 .f32) (x2 : Vec Ideal S4x64x64 .f32) (r : Fin 8000) (h : Fin 4) :
    k0_pay2 (F := Ideal) x0 x1 x2 (ix2 r h) = Cert.Spec.form x0 x1 x2 r h := by
  rw [pay2_eq]
  unfold Cert.Spec.form
  match h with
  | ⟨0, _⟩ => exact (concat4_at _ _ _ _ r 0 (by decide) _ rfl rfl).trans (col_at x0 x1 x2 _ _ 0 rfl r 0)
  | ⟨1, _⟩ => exact (concat4_at _ _ _ _ r 1 (by decide) _ rfl rfl).trans (col_at x0 x1 x2 _ _ 1 rfl r 0)
  | ⟨2, _⟩ => exact (concat4_at _ _ _ _ r 2 (by decide) _ rfl rfl).trans (col_at x0 x1 x2 _ _ 2 rfl r 0)
  | ⟨3, _⟩ => exact (concat4_at _ _ _ _ r 3 (by decide) _ rfl rfl).trans (col_at x0 x1 x2 _ _ 3 rfl r 0)

/-- The body's output block is the specification's score of its three input blocks. -/
theorem out_eq (x0 x1 : Vec Ideal S8000x64 .f32) (x2 : Vec Ideal S4x64x64 .f32) :
    Gen.out0_3 (F := Ideal) x0 x1 x2 = Cert.Spec.score (n := 8000) x0 x1 x2 := by
  funext y
  obtain ⟨r, h, rfl⟩ : ∃ (r : Fin 8000) (h : Fin 4), y = ix2 r h := ⟨y 0, y 1, eq_ix2 y⟩
  have hz : (![0, 0] : Fin 2 → Nat) = fun _ => 0 := funext fun a => by
    match a with | ⟨0, _⟩ => rfl | ⟨1, _⟩ => rfl
  have hz3 : (![0, 0, 0] : Fin 3 → Nat) = fun _ => 0 := funext fun a => by
    match a with | ⟨0, _⟩ => rfl | ⟨1, _⟩ => rfl | ⟨2, _⟩ => rfl
  unfold Gen.out0_3
  rw [View.canon_unit_zero hz]
  simp only [View.ld_unit_zero (S := S8000x64) hz, View.ld_unit_zero (S := S4x64x64) hz3]
  unfold k0_pay1 k0_pay3
  show Scalar.select (FloatOps.cmpf (F := Ideal) (φ := .f32) .oge (k0_pay2 (F := Ideal) x0 x1 x2 (ix2 r h)) (Scalar.ofBits .f32 0x00000000#32))
      (k0_pay2 (F := Ideal) x0 x1 x2 (ix2 r h))
      (Scalar.ofBits (F := Ideal) .f32 0x3E4CCCCD#32 * k0_pay2 (F := Ideal) x0 x1 x2 (ix2 r h))
    = Cert.Spec.leaky (Cert.Spec.form x0 x1 x2 r h)
  rw [pay2_at]
  rfl

end Cert.KernelIdeal.Body

end
-- ==== Proof.KerArray.lean ====
/-
  The kernel program's run read as values, at the extended reals.

  The region's output array is cut into 100 blocks of 8000 rows; point `t` of the grid writes block `t`, and what
  it writes is the specification's score of block `t` of the two gathered row matrices and of the whole stack of
  metric matrices. A score at row `8000·t + r` depends only on row `8000·t + r` of the two matrices, so the blocks
  are the restrictions of ONE function of the whole arrays — the specification's score over all 800000 edges —
  and since the blocks cover every row, the array ends holding that function. The operations before the region
  compute the gathered rows from the arguments; the operations after it are the neighbourhood softmax.
-/
import proofs.«109078_j61873298866223_1_alg».proof.Proof.Gen.KernelIdeal.Frame
import proofs.«109078_j61873298866223_1_alg».proof.Proof.KerTerms
import proofs.«109078_j61873298866223_1_alg».proof.Proof.KerBody
import Idealize.ShloMosaic.Lib.ValueIdx
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-! ## The blocks' positions -/

/-- Over the 100 points: the two row windows sit at the output's row block and column block 0, the matrices'
    window at block (0,0,0), the output's column block is 0 and its row block is below 100. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 3) = 0 ∧ win0_2.index t (1 : Fin 3) = 0 ∧ win0_2.index t (2 : Fin 3) = 0
    ∧ win0_3.index t (1 : Fin 2) = 0 ∧ win0_3.index t (0 : Fin 2) ≤ 99 :=
  (by decide +kernel : ∀ t : Fin grid0.N, _)

/-- Every row block is some point's. -/
theorem idx_onto : ∀ q : Fin 100, ∃ t : Fin cfg0.N, win0_3.index t = ![q.val, 0] :=
  (by decide +kernel : ∀ q : Fin 100, ∃ t : Fin grid0.N, win0_3.index t = ![q.val, 0])

/-! ## What a point writes back -/

/-- Scores of a block against scores of the whole arrays: if, at the rows and the head two indices name, the block's
    entries are the arrays' entries, the two scores agree (each is the same sum of the same products). -/
theorem score_of_rows (B0 B1 : Vec Ideal S8000x64 .f32) (B2 : Vec Ideal S4x64x64 .f32)
    (A0 A1 : FVec Ideal S800000x64 .f32) (A2 : FVec Ideal S4x64x64 .f32) (y : S8000x4.Idx) (Y : S800000x4.Idx)
    (h0 : ∀ f : Fin 64, B0 (ix2 (y 0) f) = A0 (ix2 (Y 0) f))
    (h1 : ∀ g : Fin 64, B1 (ix2 (y 0) g) = A1 (ix2 (Y 0) g))
    (h2 : ∀ f g : Fin 64, B2 (ix3 (y 1) f g) = A2 (ix3 (Y 1) f g)) :
    Cert.Spec.score (n := 8000) B0 B1 B2 y = Cert.Spec.score (n := 800000) A0 A1 A2 Y := by
  unfold Cert.Spec.score Cert.Spec.form
  exact congrArg Cert.Spec.leaky (Finset.sum_congr rfl fun f _ =>
    congrArg₂ (· * ·) (h0 f) (Finset.sum_congr rfl fun g _ => congrArg₂ (· * ·) (h1 g) (h2 f g)))

/-- The three input blocks at a point, at their literal types. -/
abbrev blk0 (c : Dev nD) (t : Fin cfg0.N) : Vec Ideal S8000x64 .f32 := iblk m c 0 t
abbrev blk1 (c : Dev nD) (t : Fin cfg0.N) : Vec Ideal S8000x64 .f32 := iblk m c 1 t
abbrev blk2 (c : Dev nD) (t : Fin cfg0.N) : Vec Ideal S4x64x64 .f32 := iblk m c 2 t

/-- A block's entry is the array's entry at the block's position (the arrays kept folded). -/
theorem read0 (c : Dev nD) (t : Fin cfg0.N) (z : S8000x64.Idx) :
    blk0 m c t z = V m c main_v19 (((cfg0.win 0).blk t).view.emb z) := rfl
theorem read1 (c : Dev nD) (t : Fin cfg0.N) (z : S8000x64.Idx) :
    blk1 m c t z = V m c main_v18 (((cfg0.win 1).blk t).view.emb z) := rfl
theorem read2 (c : Dev nD) (t : Fin cfg0.N) (z : S4x64x64.Idx) :
    blk2 m c t z = V m c main_v20 (((cfg0.win 2).blk t).view.emb z) := rfl

/-- Where row `y 0` of the source rows' block sits in the array: at the output block's row, same column. -/
theorem emb0 (t : Fin cfg0.N) (y : S8000x4.Idx) (f : Fin 64) :
    ((cfg0.win 0).blk t).view.emb (ix2 (y 0) f) = (ix2 ((((cfg0.win 3).blk t).view.emb y) 0) f : S800000x64.Idx) := by
  obtain ⟨e0, e1, e2, e3, e4, e5, e6, e7, e8⟩ := idx_facts t
  refine funext fun a => Fin.ext ?_
  match a with
  | ⟨0, _⟩ => show win0_0.index t (0 : Fin 2) * 8000 + 1 * (y 0).val = win0_3.index t (0 : Fin 2) * 8000 + 1 * (y 0).val; omega
  | ⟨1, _⟩ => show win0_0.index t (1 : Fin 2) * 64 + 1 * f.val = f.val; omega

/-- The same for the target rows' block. -/
theorem emb1 (t : Fin cfg0.N) (y : S8000x4.Idx) (g : Fin 64) :
    ((cfg0.win 1).blk t).view.emb (ix2 (y 0) g) = (ix2 ((((cfg0.win 3).blk t).view.emb y) 0) g : S800000x64.Idx) := by
  obtain ⟨e0, e1, e2, e3, e4, e5, e6, e7, e8⟩ := idx_facts t
  refine funext fun a => Fin.ext ?_
  match a with
  | ⟨0, _⟩ => show win0_1.index t (0 : Fin 2) * 8000 + 1 * (y 0).val = win0_3.index t (0 : Fin 2) * 8000 + 1 * (y 0).val; omega
  | ⟨1, _⟩ => show win0_1.index t (1 : Fin 2) * 64 + 1 * g.val = g.val; omega

/-- The matrices' block is the whole stack: head `y 1` of the block is head `y 1` of the output's column. -/
theorem emb2 (t : Fin cfg0.N) (y : S8000x4.Idx) (f g : Fin 64) :
    ((cfg0.win 2).blk t).view.emb (ix3 (y 1) f g) = (ix3 ((((cfg0.win 3).blk t).view.emb y) 1) f g : S4x64x64.Idx) := by
  obtain ⟨e0, e1, e2, e3, e4, e5, e6, e7, e8⟩ := idx_facts t
  refine funext fun a => Fin.ext ?_
  match a with
  | ⟨0, _⟩ => show win0_2.index t (0 : Fin 3) * 4 + 1 * (y 1).val = win0_3.index t (1 : Fin 2) * 4 + 1 * (y 1).val; omega
  | ⟨1, _⟩ => show win0_2.index t (1 : Fin 3) * 64 + 1 * f.val = f.val; omega
  | ⟨2, _⟩ => show win0_2.index t (2 : Fin 3) * 64 + 1 * g.val = g.val; omega

set_option maxHeartbeats 1000000 in
/-- Point `t` writes back block `t` of the score function of the three arrays as the region finds them. -/
theorem flushed_eq (c : Dev nD) (t : Fin cfg0.N) :
    (dats m 0 c).flushed 3 t = ((cfg0.win 3).blk t).view.read (Elt Ideal)
      (Cert.Spec.score (n := 800000) (V m c main_v19) (V m c main_v18) (V m c main_v20)) := by
  show (cfg0.win 3).cut (grid0.coords t) ((dats m 0 c).after 3 t) = _
  rw [after0_3, Cert.KernelIdeal.Body.out_eq]
  funext y
  refine score_of_rows (blk0 m c t) (blk1 m c t) (blk2 m c t) (V m c main_v19) (V m c main_v18) (V m c main_v20)
    y (((cfg0.win 3).blk t).view.emb y) ?_ ?_ ?_
  · intro f
    refine (read0 m c t _).trans ?_
    generalize V m c main_v19 = A
    exact congrArg A (emb0 t y f)
  · intro g
    refine (read1 m c t _).trans ?_
    generalize V m c main_v18 = A
    exact congrArg A (emb1 t y g)
  · intro f g
    refine (read2 m c t _).trans ?_
    generalize V m c main_v20 = A
    exact congrArg A (emb2 t y f g)

/-! ## The blocks cover the array -/

/-- An index of the array is in point `t`'s block iff each coordinate is in the block's range on its axis. -/
theorem mem_blk (t : Fin cfg0.N) (i : S800000x4.Idx) :
    i ∈ ((cfg0.win 3).blk t).view.set ↔ ∀ a : Fin 2, win0_3.index t a * S8000x4.size a ≤ (i a).val ∧ (i a).val < win0_3.index t a * S8000x4.size a + S8000x4.size a := by
  show i ∈ ((View.whole main_v21).slice (win0_3.rect t)).set ↔ _
  rw [View.set_slice_whole, Rect.mem_set_unit]
  exact Iff.rfl

/-- Row `i 0` lies in the block of point number `(i 0) / 8000`. -/
theorem cover (i : S800000x4.Idx) : ∃ t : Fin cfg0.N, (cfg0.win 3).flush t = true ∧ i ∈ ((cfg0.win 3).blk t).view.set := by
  have hi0 : (i 0).val < 800000 := (i 0).isLt
  have hi1 : (i 1).val < 4 := (i 1).isLt
  obtain ⟨t, ht⟩ := idx_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 4 ≤ (i 1).val ∧ (i 1).val < win0_3.index t (1 : Fin 2) * 4 + 4; omega

/-- The output array after the run is the score function of the three arrays as the region finds them. -/
theorem final (c : Dev nD) : (dats m 0 c).arrAt 3 cfg0.N
    = Cert.Spec.score (n := 800000) (V m c main_v19) (V m c main_v18) (V m c main_v20) :=
  (dats m 0 c).arrAt_eq_of_cover 3 _ (fun t _ => flushed_eq m c t) cover

end Cert.KernelIdeal.Arr

end
-- ==== Proof.KerRun.lean ====
/-
  The kernel program's run, its two results named: the arrays the region reads are the gathered feature rows and the
  metric matrices (the operations before the region), the region leaves the score array, and the operations after it
  take the neighbourhood softmax of that array grouped by the target nodes.
-/
import proofs.«109078_j61873298866223_1_alg».proof.Proof.KerArray

set_option maxRecDepth 16384

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

/-! ## The arrays the region finds -/

set_option maxHeartbeats 1000000 in
/-- The source rows' window reads the gathered source rows as a matrix. -/
theorem V_v19 (c : Dev nD) : V m c main_v19
    = Terms.xsrc2 (m ((c.tc : Thread nD τ).loc main_arg0)) (m ((c.tc : Thread nD τ).loc main_arg1)) := by
  show StableHlo.after hostOps0 (fun b => m (c, b)) (Proc.devRef .tc main_v19) = _
  after_results_simp
  rfl

set_option maxHeartbeats 1000000 in
/-- The target rows' window reads the gathered target rows as a matrix. -/
theorem V_v18 (c : Dev nD) : V m c main_v18
    = Terms.xtrg2 (m ((c.tc : Thread nD τ).loc main_arg0)) (m ((c.tc : Thread nD τ).loc main_arg1)) := by
  show StableHlo.after hostOps0 (fun b => m (c, b)) (Proc.devRef .tc main_v18) = _
  after_results_simp
  rfl

set_option maxHeartbeats 1000000 in
/-- The matrices' window reads the four metric matrices. -/
theorem V_v20 (c : Dev nD) : V m c main_v20 = Terms.w3 (m ((c.tc : Thread nD τ).loc main_arg2)) := by
  show StableHlo.after hostOps0 (fun b => m (c, b)) (Proc.devRef .tc main_v20) = _
  after_results_simp
  rfl

set_option maxHeartbeats 1000000 in
/-- The target indices the later operations group by. -/
theorem V_v1 (c : Dev nD) : V m c main_v1 = Terms.trg (m ((c.tc : Thread nD τ).loc main_arg1)) := by
  show StableHlo.after hostOps0 (fun b => m (c, b)) (Proc.devRef .tc main_v1) = _
  after_results_simp
  rfl

set_option maxHeartbeats 1000000 in
/-- The second result: the gathered source rows. -/
theorem V_v10 (c : Dev nD) : V m c main_v10
    = Terms.xsrc (m ((c.tc : Thread nD τ).loc main_arg0)) (m ((c.tc : Thread nD τ).loc main_arg1)) := by
  show StableHlo.after hostOps0 (fun b => m (c, b)) (Proc.devRef .tc main_v10) = _
  after_results_simp
  rfl

/-! ## After the region -/

/-- The score array the later operations read: what the region left, as the named function of the arguments. -/
theorem scores_after (c : Dev nD) :
    Pipeline.withArrays (cfgs 0).spec c (V0 m c) (fun w => (dats m 0 c).arrAt w (cfgs 0).N) (Proc.devRef .tc main_v21)
      = Terms.scoresK (m ((c.tc : Thread nD τ).loc main_arg0)) (m ((c.tc : Thread nD τ).loc main_arg1)) (m ((c.tc : Thread nD τ).loc main_arg2)) := by
  refine (Pipeline.withArrays_arr spec0 launch0.win.arr_inj c _ _ 3).trans ?_
  rw [Cert.KernelIdeal.Arr.final, V_v19, V_v18, V_v20]
  rfl

/-- The target indices the later operations read are the ones computed before the region. -/
theorem trg_after (c : Dev nD) :
    Pipeline.withArrays (cfgs 0).spec c (V0 m c) (fun w => (dats m 0 c).arrAt w (cfgs 0).N) (Proc.devRef .tc main_v1)
      = Terms.trg (m ((c.tc : Thread nD τ).loc main_arg1)) :=
  (Pipeline.withArrays_of_ne _ c (V0 m c) _ main_v1 (by exact (by decide : ∀ w, Pipeline.arrRef spec0 w ≠ main_v1))).trans (V_v1 m c)

/-- The gathered source rows pass the region and the later operations unchanged. -/
theorem xsrc_after (c : Dev nD) :
    Pipeline.withArrays (cfgs 0).spec c (V0 m c) (fun w => (dats m 0 c).arrAt w (cfgs 0).N) (Proc.devRef .tc main_v10)
      = Terms.xsrc (m ((c.tc : Thread nD τ).loc main_arg0)) (m ((c.tc : Thread nD τ).loc main_arg1)) :=
  (Pipeline.withArrays_of_ne _ c (V0 m c) _ main_v10 (by exact (by decide : ∀ w, Pipeline.arrRef spec0 w ≠ main_v10))).trans (V_v10 m c)

set_option maxHeartbeats 1000000 in
/-- The first result: the neighbourhood softmax of the score array. -/
theorem out_after (c : Dev nD) :
    Pipeline.afterTail₀ cfgs (dats m) 0 (V0 m) [hostOps1] c main_v39
      = Terms.out (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v39) = _
  after_results_simp
  rw [scores_after, trg_after]
  rfl

/-- The second result is untouched by the later operations. -/
theorem xsrc_out (c : Dev nD) :
    Pipeline.afterTail₀ cfgs (dats m) 0 (V0 m) [hostOps1] c main_v10
      = Terms.xsrc (m ((c.tc : Thread nD τ).loc main_arg0)) (m ((c.tc : Thread nD τ).loc main_arg1)) := by
  unfold Pipeline.afterTail₀
  rw [StableHlo.after_of_forall_not_mem (b := Proc.devRef .tc main_v10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)))]
  exact xsrc_after m c

/-! ## The run -/

/-- Every weakly fair execution of the kernel program terminates with its results at the named terms of the
    arguments and the arguments unchanged. -/
theorem run : θ_run (defs (F := Ideal)) (onTc (τ := τ) (main (F := Ideal))) ⟨m, fun _ => 0, ρ⟩ fun r => ∀ c : Dev nD,
      r.2.mem ((c.tc : Thread nD τ).loc main_v39)
          = Terms.out (m ((c.tc : Thread nD τ).loc main_arg0)) (m ((c.tc : Thread nD τ).loc main_arg1)) (m ((c.tc : Thread nD τ).loc main_arg2))
      ∧ r.2.mem ((c.tc : Thread nD τ).loc main_v10)
          = Terms.xsrc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v39 (Pipeline.mem_restRefs_of main_v39 (by decide) (by decide))).trans (out_after m c),
      ((h c).2 main_v10 (Pipeline.mem_restRefs_of main_v10 (by decide) (by decide))).trans (xsrc_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefTerms.lean ====
/-
  The reference's values named: the index vectors cut out of the edge table, the gathered feature rows, the scores as the reference computes them (a contraction of the target rows with the four metric matrices, a product with the source rows, a sum over the feature axis, the leaky rectifier), and the neighbourhood softmax that follows them.
-/
import proofs.«109078_j61873298866223_1_alg».proof.Proof.Gen.ReferenceIdeal
import proofs.«109078_j61873298866223_1_alg».proof.Proof.Spec

noncomputable section

namespace Cert.ReferenceIdeal.Terms

open Idealize.ShloMosaic Idealize.SL.Sem Cert.ReferenceIdeal Cert.ReferenceIdeal.Gen

/-- The target row of the edge table, as a vector of 800000 words. -/
def trg (a1 : IVec S2x800000 32) : IVec S800000 32 :=
  shapeCast S800000 (extractStridedSlice S1x800000 ![0, 0] a1 slices_S2x800000_S1x800000_0_0) shapeCasts_S1x800000_S800000

/-- The source row of the edge table. -/
def src (a1 : IVec S2x800000 32) : IVec S800000 32 :=
  shapeCast S800000 (extractStridedSlice S1x800000 ![1, 0] a1 slices_S2x800000_S1x800000_1_0) shapeCasts_S1x800000_S800000

/-- A node index made non-negative (50000 added where it is below zero), as a column of start indices. -/
def norm (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The source nodes' feature rows, one per edge. -/
def xsrc (a0 : FVec Ideal S50000x1x64 .f32) (a1 : IVec S2x800000 32) : FVec Ideal S800000x1x64 .f32 :=
  Host.gather gather_S50000x1x64_S800000x1_S800000x1x64_12_0_n_n_0_1_1164 a0 (norm (src a1))

/-- The same rows as a matrix of 800000 rows. -/
def xsrc2 (a0 : FVec Ideal S50000x1x64 .f32) (a1 : IVec S2x800000 32) : FVec Ideal S800000x64 .f32 :=
  shapeCast S800000x64 (xsrc a0 a1) shapeCasts_S800000x1x64_S800000x64

/-- The target nodes' feature rows, one per edge, as a matrix. -/
def xtrg2 (a0 : FVec Ideal S50000x1x64 .f32) (a1 : IVec S2x800000 32) : FVec Ideal S800000x64 .f32 :=
  shapeCast S800000x64 (Host.gather gather_S50000x1x64_S800000x1_S800000x1x64_12_0_n_n_0_1_1164 a0 (norm (trg a1)))
    shapeCasts_S800000x1x64_S800000x64

/-- The four metric matrices. -/
def w3 (a2 : FVec Ideal S1x4x64x64 .f32) : FVec Ideal S4x64x64 .f32 :=
  shapeCast S4x64x64 a2 shapeCasts_S1x4x64x64_S4x64x64

/-- The exponentials of the scores less their global maximum. -/
def expo (s : FVec Ideal S800000x4 .f32) : FVec Ideal S800000x4 .f32 :=
  Host.exp (subf s (broadcastInDim S800000x4 ![] bcast_S_S800000x4
    (Host.reduce FloatOps.maximumf s (constant (F := Ideal) S_ .f32 0xFF800000#32) reducesTo_S800000x4_S_d0_1 h_S_)))

/-- The neighbourhood softmax of a score array `s` grouped by the target nodes `t`: each exponential over the sum
    of the exponentials of the edges with the same target (plus the constant 1e-16), with a trailing unit axis. -/
def tail (s : FVec Ideal S800000x4 .f32) (t : IVec S800000 32) : FVec Ideal S800000x4x1 .f32 :=
  broadcastInDim S800000x4x1 ![0, 1] bcast_S800000x4_S800000x4x1_0_1
    (Host.divf (expo s)
      (addf
        (Host.gather gather_S50000x4_S800000x1_S800000x4_1_0_n_n_0_1_14
          (Host.scatterAdd scatter_S50000x4_S800000x1_S800000x4_1_0_0_1
            (broadcastInDim S50000x4 ![] bcast_S_S50000x4 (constant (F := Ideal) S_ .f32 0x00000000#32))
            (broadcastInDim S800000x1 ![0] bcast_S800000_S800000x1_0 t) (expo s))
          (norm t))
        (broadcastInDim S800000x4 ![] bcast_S_S800000x4 (constant (F := Ideal) S_ .f32 0x24E69595#32))))

/-- The scores as the reference computes them: per edge and head the sum over `f` of the source row times the
    contraction of the target row with the head's matrix, then the leaky rectifier with slope word 0x3E4CCCCD. -/
def scoresR (a0 : FVec Ideal S50000x1x64 .f32) (a1 : IVec S2x800000 32) (a2 : FVec Ideal S1x4x64x64 .f32) :
    FVec Ideal S800000x4 .f32 :=
  select
    (cmpf .oge
      (Host.reduceAdd
        (mulf (broadcastInDim S800000x4x64 ![0, 1, 2] bcast_S800000x1x64_S800000x4x64_0_1_2 (xsrc a0 a1))
          (Host.dotGeneral dot_S800000x64_S4x64x64_S800000x4x64_1_2_0_01_n_n none (xtrg2 a0 a1) (w3 a2)))
        (constant (F := Ideal) S_ .f32 0x00000000#32) reducesTo_S800000x4x64_S800000x4_d2 h_S_)
      (broadcastInDim S800000x4 ![] bcast_S_S800000x4 (constant (F := Ideal) S_ .f32 0x00000000#32)))
    (Host.reduceAdd
      (mulf (broadcastInDim S800000x4x64 ![0, 1, 2] bcast_S800000x1x64_S800000x4x64_0_1_2 (xsrc a0 a1))
        (Host.dotGeneral dot_S800000x64_S4x64x64_S800000x4x64_1_2_0_01_n_n none (xtrg2 a0 a1) (w3 a2)))
      (constant (F := Ideal) S_ .f32 0x00000000#32) reducesTo_S800000x4x64_S800000x4_d2 h_S_)
    (mulf (broadcastInDim S800000x4 ![] bcast_S_S800000x4 (id (constant (F := Ideal) S_ .f32 0x3E4CCCCD#32)))
      (Host.reduceAdd
        (mulf (broadcastInDim S800000x4x64 ![0, 1, 2] bcast_S800000x1x64_S800000x4x64_0_1_2 (xsrc a0 a1))
          (Host.dotGeneral dot_S800000x64_S4x64x64_S800000x4x64_1_2_0_01_n_n none (xtrg2 a0 a1) (w3 a2)))
        (constant (F := Ideal) S_ .f32 0x00000000#32) reducesTo_S800000x4x64_S800000x4_d2 h_S_))

/-- The reference's first result. -/
def out (a0 : FVec Ideal S50000x1x64 .f32) (a1 : IVec S2x800000 32) (a2 : FVec Ideal S1x4x64x64 .f32) :
    FVec Ideal S800000x4x1 .f32 :=
  tail (scoresR a0 a1 a2) (trg a1)

end Cert.ReferenceIdeal.Terms

end
-- ==== Proof.RefRun.lean ====
/-
  The reference program's run read back: its operations in order, the two outlined functions' operations in
  place of their calls, and that every weakly fair execution ends with the first result at the named term
  `Terms.out` of the arguments, the second at the gathered source rows, and the arguments unchanged.
-/
import proofs.«109078_j61873298866223_1_alg».proof.Proof.RefTerms
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

section Ops

variable {F : FTy → Type} [FloatOps F]

/-- The program's sixty operations in order: the thirty-one before the rectifier's call, the call's seven (the zero,
    its broadcast, the comparison, the slope converted and broadcast, the product, and the inner selection, each over
    the call's own buffers and the caller's two operands), and the twenty-two of the neighbourhood softmax. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x1x64_S800000x1_S800000x1x64_12_0_n_n_0_1_1164 x i) : (⟨S50000x1x64, .f32⟩ : BufTy).Contents (Elt F) → (⟨S800000x1, .i32⟩ : BufTy).Contents (Elt F) → (⟨S800000x1x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x1x64_S800000x1_S800000x1x64_12_0_n_n_0_1_1164 x i) : (⟨S50000x1x64, .f32⟩ : BufTy).Contents (Elt F) → (⟨S800000x1, .i32⟩ : BufTy).Contents (Elt F) → (⟨S800000x1x64, .f32⟩ : BufTy).Contents (Elt F)),
    reshape main_v17 main_v18 rfl shapeCasts_S800000x1x64_S800000x64,
    reshape main_arg2 main_v19 rfl shapeCasts_S1x4x64x64_S4x64x64,
    binary main_v18 main_v19 main_v20 ((fun l r => Host.dotGeneral dot_S800000x64_S4x64x64_S800000x4x64_1_2_0_01_n_n none l r) : (⟨S800000x64, .f32⟩ : BufTy).Contents (Elt F) → (⟨S4x64x64, .f32⟩ : BufTy).Contents (Elt F) → (⟨S800000x4x64, .f32⟩ : BufTy).Contents (Elt F)),
    unary main_v10 main_v21 (broadcastInDim S800000x4x64 ![0, 1, 2] bcast_S800000x1x64_S800000x4x64_0_1_2 : (⟨S800000x1x64, .f32⟩ : BufTy).Contents (Elt F) → (⟨S800000x4x64, .f32⟩ : BufTy).Contents (Elt F)),
    binary main_v21 main_v20 main_v22 (mulf : (⟨S800000x4x64, .f32⟩ : BufTy).Contents (Elt F) → (⟨S800000x4x64, .f32⟩ : BufTy).Contents (Elt F) → (⟨S800000x4x64, .f32⟩ : BufTy).Contents (Elt F)),
    nullary main_cst (constant S_ .f32 0x00000000#32),
    binary main_v22 main_cst main_v23 ((fun x v => Host.reduceAdd x v reducesTo_S800000x4x64_S800000x4_d2 h_S_) : (⟨S800000x4x64, .f32⟩ : BufTy).Contents (Elt F) → (⟨S_, .f32⟩ : BufTy).Contents (Elt F) → (⟨S800000x4, .f32⟩ : BufTy).Contents (Elt F)),
    nullary main_cst_3 (constant S_ .f32 0x3E4CCCCD#32),
    TRef.nullary main_call0.cst (constant S_ .f32 0x00000000#32),
    TRef.unary main_call0.cst main_call0.v0 (broadcastInDim S800000x4 ![] bcast_S_S800000x4),
    TRef.binary (TRef.of main_v23 : TRef sig ⟨S800000x4, .f32⟩) main_call0.v0 main_call0.v1 (cmpf .oge),
    TRef.unary (TRef.of main_cst_3 : TRef sig ⟨S_, .f32⟩) main_call0.v2 id,
    TRef.unary main_call0.v2 main_call0.v3 (broadcastInDim S800000x4 ![] bcast_S_S800000x4),
    TRef.binary main_call0.v3 (TRef.of main_v23 : TRef sig ⟨S800000x4, .f32⟩) main_call0.v4 mulf,
    TRef.ternary main_call0.v1 (TRef.of main_v23 : TRef sig ⟨S800000x4, .f32⟩) main_call0.v4 main_call0.call0.v0 select,
    nullary main_cst_4 (constant S_ .f32 0xFF800000#32),
    binary main_v24 main_cst_4 main_v25 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    unary main_v25 main_v26 (broadcastInDim S800000x4 ![] bcast_S_S800000x4 : (⟨S_, .f32⟩ : BufTy).Contents (Elt F) → (⟨S800000x4, .f32⟩ : BufTy).Contents (Elt F)),
    binary main_v24 main_v26 main_v27 (subf : (⟨S800000x4, .f32⟩ : BufTy).Contents (Elt F) → (⟨S800000x4, .f32⟩ : BufTy).Contents (Elt F) → (⟨S800000x4, .f32⟩ : BufTy).Contents (Elt F)),
    unary main_v27 main_v28 (Host.exp : (⟨S800000x4, .f32⟩ : BufTy).Contents (Elt F) → (⟨S800000x4, .f32⟩ : BufTy).Contents (Elt F)),
    nullary main_cst_5 (constant S_ .f32 0x00000000#32),
    unary main_cst_5 main_v29 (broadcastInDim S50000x4 ![] bcast_S_S50000x4 : (⟨S_, .f32⟩ : BufTy).Contents (Elt F) → (⟨S50000x4, .f32⟩ : BufTy).Contents (Elt F)),
    unary main_v1 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_cst_8 (constant S_ .f32 0x24E69595#32),
    unary main_cst_8 main_v39 (broadcastInDim S800000x4 ![] bcast_S_S800000x4 : (⟨S_, .f32⟩ : BufTy).Contents (Elt F) → (⟨S800000x4, .f32⟩ : BufTy).Contents (Elt F)),
    binary main_v38 main_v39 main_v40 (addf : (⟨S800000x4, .f32⟩ : BufTy).Contents (Elt F) → (⟨S800000x4, .f32⟩ : BufTy).Contents (Elt F) → (⟨S800000x4, .f32⟩ : BufTy).Contents (Elt F)),
    binary main_v28 main_v40 main_v41 (Host.divf : (⟨S800000x4, .f32⟩ : BufTy).Contents (Elt F) → (⟨S800000x4, .f32⟩ : BufTy).Contents (Elt F) → (⟨S800000x4, .f32⟩ : BufTy).Contents (Elt F)),
    unary main_v41 main_v42 (broadcastInDim S800000x4x1 ![0, 1] bcast_S800000x4_S800000x4x1_0_1 : (⟨S800000x4, .f32⟩ : BufTy).Contents (Elt F) → (⟨S800000x4x1, .f32⟩ : BufTy).Contents (Elt F)) ]

set_option maxRecDepth 4096 in
/-- The program is that straight line: the two functions' bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., reshape_bufs_sub ..,
    binary_bufs_sub .., unary_bufs_sub .., binary_bufs_sub .., nullary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., binary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., binary_bufs_sub .., unary_bufs_sub ..⟩

end Ops

section Split

variable {F : FTy → Type} [FloatOps F]

/-- The thirty operations before the rectifier's call. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x1x64_S800000x1_S800000x1x64_12_0_n_n_0_1_1164 x i) : (⟨S50000x1x64, .f32⟩ : BufTy).Contents (Elt F) → (⟨S800000x1, .i32⟩ : BufTy).Contents (Elt F) → (⟨S800000x1x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x1x64_S800000x1_S800000x1x64_12_0_n_n_0_1_1164 x i) : (⟨S50000x1x64, .f32⟩ : BufTy).Contents (Elt F) → (⟨S800000x1, .i32⟩ : BufTy).Contents (Elt F) → (⟨S800000x1x64, .f32⟩ : BufTy).Contents (Elt F)),
    reshape main_v17 main_v18 rfl shapeCasts_S800000x1x64_S800000x64,
    reshape main_arg2 main_v19 rfl shapeCasts_S1x4x64x64_S4x64x64,
    binary main_v18 main_v19 main_v20 ((fun l r => Host.dotGeneral dot_S800000x64_S4x64x64_S800000x4x64_1_2_0_01_n_n none l r) : (⟨S800000x64, .f32⟩ : BufTy).Contents (Elt F) → (⟨S4x64x64, .f32⟩ : BufTy).Contents (Elt F) → (⟨S800000x4x64, .f32⟩ : BufTy).Contents (Elt F)),
    unary main_v10 main_v21 (broadcastInDim S800000x4x64 ![0, 1, 2] bcast_S800000x1x64_S800000x4x64_0_1_2 : (⟨S800000x1x64, .f32⟩ : BufTy).Contents (Elt F) → (⟨S800000x4x64, .f32⟩ : BufTy).Contents (Elt F)),
    binary main_v21 main_v20 main_v22 (mulf : (⟨S800000x4x64, .f32⟩ : BufTy).Contents (Elt F) → (⟨S800000x4x64, .f32⟩ : BufTy).Contents (Elt F) → (⟨S800000x4x64, .f32⟩ : BufTy).Contents (Elt F)),
    nullary main_cst (constant S_ .f32 0x00000000#32),
    binary main_v22 main_cst main_v23 ((fun x v => Host.reduceAdd x v reducesTo_S800000x4x64_S800000x4_d2 h_S_) : (⟨S800000x4x64, .f32⟩ : BufTy).Contents (Elt F) → (⟨S_, .f32⟩ : BufTy).Contents (Elt F) → (⟨S800000x4, .f32⟩ : BufTy).Contents (Elt F)),
    nullary main_cst_3 (constant S_ .f32 0x3E4CCCCD#32) ]

/-- The call's seven operations. -/
abbrev opsB : List (HloOp τ sig (Elt F)) :=
  [ TRef.nullary main_call0.cst (constant S_ .f32 0x00000000#32),
    TRef.unary main_call0.cst main_call0.v0 (broadcastInDim S800000x4 ![] bcast_S_S800000x4),
    TRef.binary (TRef.of main_v23 : TRef sig ⟨S800000x4, .f32⟩) main_call0.v0 main_call0.v1 (cmpf .oge),
    TRef.unary (TRef.of main_cst_3 : TRef sig ⟨S_, .f32⟩) main_call0.v2 id,
    TRef.unary main_call0.v2 main_call0.v3 (broadcastInDim S800000x4 ![] bcast_S_S800000x4),
    TRef.binary main_call0.v3 (TRef.of main_v23 : TRef sig ⟨S800000x4, .f32⟩) main_call0.v4 mulf,
    TRef.ternary main_call0.v1 (TRef.of main_v23 : TRef sig ⟨S800000x4, .f32⟩) main_call0.v4 main_call0.call0.v0 select ]

/-- The twenty-three operations of the neighbourhood softmax. -/
abbrev opsC : List (HloOp τ sig (Elt F)) :=
  [ nullary main_cst_4 (constant S_ .f32 0xFF800000#32),
    binary main_v24 main_cst_4 main_v25 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    unary main_v25 main_v26 (broadcastInDim S800000x4 ![] bcast_S_S800000x4 : (⟨S_, .f32⟩ : BufTy).Contents (Elt F) → (⟨S800000x4, .f32⟩ : BufTy).Contents (Elt F)),
    binary main_v24 main_v26 main_v27 (subf : (⟨S800000x4, .f32⟩ : BufTy).Contents (Elt F) → (⟨S800000x4, .f32⟩ : BufTy).Contents (Elt F) → (⟨S800000x4, .f32⟩ : BufTy).Contents (Elt F)),
    unary main_v27 main_v28 (Host.exp : (⟨S800000x4, .f32⟩ : BufTy).Contents (Elt F) → (⟨S800000x4, .f32⟩ : BufTy).Contents (Elt F)),
    nullary main_cst_5 (constant S_ .f32 0x00000000#32),
    unary main_cst_5 main_v29 (broadcastInDim S50000x4 ![] bcast_S_S50000x4 : (⟨S_, .f32⟩ : BufTy).Contents (Elt F) → (⟨S50000x4, .f32⟩ : BufTy).Contents (Elt F)),
    unary main_v1 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_cst_8 (constant S_ .f32 0x24E69595#32),
    unary main_cst_8 main_v39 (broadcastInDim S800000x4 ![] bcast_S_S800000x4 : (⟨S_, .f32⟩ : BufTy).Contents (Elt F) → (⟨S800000x4, .f32⟩ : BufTy).Contents (Elt F)),
    binary main_v38 main_v39 main_v40 (addf : (⟨S800000x4, .f32⟩ : BufTy).Contents (Elt F) → (⟨S800000x4, .f32⟩ : BufTy).Contents (Elt F) → (⟨S800000x4, .f32⟩ : BufTy).Contents (Elt F)),
    binary main_v28 main_v40 main_v41 (Host.divf : (⟨S800000x4, .f32⟩ : BufTy).Contents (Elt F) → (⟨S800000x4, .f32⟩ : BufTy).Contents (Elt F) → (⟨S800000x4, .f32⟩ : BufTy).Contents (Elt F)),
    unary main_v41 main_v42 (broadcastInDim S800000x4x1 ![0, 1] bcast_S800000x4_S800000x4x1_0_1 : (⟨S800000x4, .f32⟩ : BufTy).Contents (Elt F) → (⟨S800000x4x1, .f32⟩ : BufTy).Contents (Elt F)) ]

/-- The program's list is the three stretches in order. -/
theorem ops_split : (ops : List (HloOp τ sig (Elt F))) = opsA ++ (opsB ++ opsC) := rfl

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Split

/-- The bilinear form before the rectifier: per edge and head the sum over the feature axis of the source row
    times the contraction of the target row with the head's matrix. -/
def pre (a0 : FVec Ideal S50000x1x64 .f32) (a1 : IVec S2x800000 32) (a2 : FVec Ideal S1x4x64x64 .f32) :
    FVec Ideal S800000x4 .f32 :=
  Host.reduceAdd
    (mulf (broadcastInDim S800000x4x64 ![0, 1, 2] bcast_S800000x1x64_S800000x4x64_0_1_2 (Terms.xsrc a0 a1))
      (Host.dotGeneral dot_S800000x64_S4x64x64_S800000x4x64_1_2_0_01_n_n none (Terms.xtrg2 a0 a1) (Terms.w3 a2)))
    (constant (F := Ideal) S_ .f32 0x00000000#32) reducesTo_S800000x4x64_S800000x4_d2 h_S_

/-- The leaky rectifier of a score array as the call computes it. -/
def leakyOf (s : FVec Ideal S800000x4 .f32) (slope : FVec Ideal S_ .f32) : FVec Ideal S800000x4 .f32 :=
  select (cmpf .oge s (broadcastInDim S800000x4 ![] bcast_S_S800000x4 (constant (F := Ideal) S_ .f32 0x00000000#32)))
    s (mulf (broadcastInDim S800000x4 ![] bcast_S_S800000x4 (id slope)) s)

/-- The reference's scores are the rectifier of the bilinear form at the slope word. -/
theorem scoresR_eq (a0 : FVec Ideal S50000x1x64 .f32) (a1 : IVec S2x800000 32) (a2 : FVec Ideal S1x4x64x64 .f32) :
    Terms.scoresR a0 a1 a2 = leakyOf (pre a0 a1 a2) (constant (F := Ideal) S_ .f32 0x3E4CCCCD#32) := rfl

/-! The first stretch: the bilinear form, the slope, the target indices; the arguments stay. -/

theorem A_v23 (V : Valuation τ sig (Elt Ideal)) :
    after (opsA (F := Ideal)) V (main_v23 : DevRef τ sig)
      = pre (V (main_arg0 : DevRef τ sig)) (V (main_arg1 : DevRef τ sig)) (V (main_arg2 : DevRef τ sig)) := by
  after_results_simp
  rfl

theorem A_cst3 (V : Valuation τ sig (Elt Ideal)) :
    after (opsA (F := Ideal)) V (main_cst_3 : DevRef τ sig) = constant (F := Ideal) S_ .f32 0x3E4CCCCD#32 := by
  after_results_simp

theorem A_v1 (V : Valuation τ sig (Elt Ideal)) :
    after (opsA (F := Ideal)) V (main_v1 : DevRef τ sig) = Terms.trg (V (main_arg1 : DevRef τ sig)) := by
  after_results_simp
  rfl

/-! The call: the rectifier of what the first stretch left; the target indices stay. -/

theorem B_v24 (W : Valuation τ sig (Elt Ideal)) :
    after (opsB (F := Ideal)) W (main_v24 : DevRef τ sig)
      = leakyOf (W (main_v23 : DevRef τ sig)) (W (main_cst_3 : DevRef τ sig)) := by
  after_results_simp
  simp only [TRef.toBuf, TRef.ofBuf, cast_eq]
  rfl

theorem B_v1 (W : Valuation τ sig (Elt Ideal)) :
    after (opsB (F := Ideal)) W (main_v1 : DevRef τ sig) = W (main_v1 : DevRef τ sig) := by
  after_results_simp

/-! The last stretch: the neighbourhood softmax of the scores grouped by the target indices. -/

theorem C_v42 (W : Valuation τ sig (Elt Ideal)) :
    after (opsC (F := Ideal)) W (main_v42 : DevRef τ sig)
      = Terms.tail (W (main_v24 : DevRef τ sig)) (W (main_v1 : DevRef τ sig)) := by
  after_results_simp
  rfl

/-- The fold of the operations at the first result's buffer is the named term of the three arguments' contents. -/
theorem out_eq (V : Valuation τ sig (Elt Ideal)) :
    after (ops (F := Ideal)) V (main_v42 : DevRef τ sig)
      = Terms.out (V (main_arg0 : DevRef τ sig)) (V (main_arg1 : DevRef τ sig)) (V (main_arg2 : DevRef τ sig)) := by
  rw [ops_split, after_app, after_app, C_v42, B_v24, B_v1, A_v23, A_cst3, A_v1, Terms.out, scoresR_eq]

/-- The fold at the second result's buffer is the gathered source rows. -/
theorem xsrc_eq (V : Valuation τ sig (Elt Ideal)) :
    after (ops (F := Ideal)) V (main_v10 : DevRef τ sig)
      = Terms.xsrc (V (main_arg0 : DevRef τ sig)) (V (main_arg1 : DevRef τ sig)) := by
  after_results_simp
  rfl

/-- No operation writes an argument's buffer. -/
theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

/-- Every weakly fair execution of the reference terminates with its results at the named terms of the arguments
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
          = Terms.out (m ((c.tc : Thread nD τ).loc main_arg0)) (m ((c.tc : Thread nD τ).loc main_arg1)) (m ((c.tc : Thread nD τ).loc main_arg2))
      ∧ r.2.mem ((c.tc : Thread nD τ).loc main_v10)
          = Terms.xsrc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run (defs (F := Ideal)) _ _).mono
    (fun _ h c => ⟨(h c main_v42).trans (out_eq _), (h c main_v10).trans (xsrc_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.Run

end
-- ==== Proof.RefScores.lean ====
/-
  The reference's scores read index by index at the extended reals: for edge `e` and head `h`, the leaky rectifier
  of  Σ_f xsrc(e,f) · Σ_g xtrg(e,g) · w(h,f,g)  — the specification's score of the gathered rows and the matrices.
-/
import proofs.«109078_j61873298866223_1_alg».proof.Proof.RefTerms
import Idealize.ShloMosaic.Lib.ValueIdx
import Idealize.ShloMosaic.Lib.Pipeline.Value
import Idealize.ShloMosaic.PureOps.Ideal.Laws

noncomputable section

namespace Cert.ReferenceIdeal.Scores

open Idealize.ShloMosaic Idealize.ShloMosaic.ValueIdx Idealize.SL.Sem Cert.ReferenceIdeal Cert.ReferenceIdeal.Gen

/-- The source rows as a matrix: entry (e, f) is the rank-3 array's entry (e, 0, f). -/
theorem cast_read (X : FVec Ideal S800000x1x64 .f32) (e : Fin 800000) (f : Fin 64) :
    shapeCast S800000x64 X shapeCasts_S800000x1x64_S800000x64 (ix2 e f) = X (ix3 e 0 f) := by
  apply shapeCast_apply
  rw [Shape.rowMajor_val_three, Shape.rowMajor_val_two]
  simp only [ix2, ix3]
  show (e.val * 1 + 0) * 64 + f.val = e.val * 64 + f.val
  omega

/-- The source rows repeated over the four heads: entry (e, h, f) is the entry (e, 0, f). -/
theorem bcast_read (X : FVec Ideal S800000x1x64 .f32) (e : Fin 800000) (h : Fin 4) (f : Fin 64) :
    broadcastInDim S800000x4x64 ![0, 1, 2] bcast_S800000x1x64_S800000x4x64_0_1_2 X (ix3 e h f) = X (ix3 e 0 f) := by
  apply broadcastInDim_apply
  intro a
  match a with
  | ⟨0, _⟩ => rfl
  | ⟨1, _⟩ => rfl
  | ⟨2, _⟩ => rfl

/-- A scalar repeated over the score array reads the scalar. -/
theorem bcast0_read (c : FVec Ideal S_ .f32) (j : S800000x4.Idx) :
    broadcastInDim S800000x4 ![] bcast_S_S800000x4 c j = c ix0 := by
  apply broadcastInDim_apply
  intro a
  exact a.elim0

/-- The host sum over the feature axis from the zero word: entry (e, h) is the sum over f of the entries (e, h, f). -/
theorem reduce_read (x : FVec Ideal S800000x4x64 .f32) (e : Fin 800000) (h : Fin 4) :
    Host.reduceAdd (F := Ideal) x (constant (F := Ideal) S_ .f32 0x00000000#32) reducesTo_S800000x4x64_S800000x4_d2 h_S_ (ix2 e h)
      = ∑ f : Fin 64, x (ix3 e h f) := by
  simp only [Host.reduceAdd]
  show Ideal.hostReduceAdd reducesTo_S800000x4x64_S800000x4_d2 x (Ideal.ofBits .f32 0x00000000#32) (ix2 e h) = _
  rw [Ideal.hostReduceAdd_single reducesTo_S800000x4x64_S800000x4_d2 (by decide : S800000x4x64.Reduces [2] S800000x4),
    Ideal.ofBits_zero_f32, zero_add]
  refine Finset.sum_congr rfl fun f _ => congrArg x (funext fun a => Fin.ext ?_)
  match a with
  | ⟨0, _⟩ => rfl
  | ⟨1, _⟩ => rfl
  | ⟨2, _⟩ => rfl

/-- The contraction's left index at output (e, h, f) and position k: its row is e … -/
theorem lhs_dot_0 (j : S800000x4x64.Idx) (k : dot_S800000x64_S4x64x64_S800000x4x64_1_2_0_01_n_n.contr.Idx) :
    (dot_S800000x64_S4x64x64_S800000x4x64_1_2_0_01_n_n.lhsIdx j k 0).val = (j 0).val := rfl
/-- … and its column is the contraction position. -/
theorem lhs_dot_1 (j : S800000x4x64.Idx) (k : dot_S800000x64_S4x64x64_S800000x4x64_1_2_0_01_n_n.contr.Idx) :
    (dot_S800000x64_S4x64x64_S800000x4x64_1_2_0_01_n_n.lhsIdx j k 1).val = (k ⟨0, by decide⟩).val :=
  DotDims.lhsIdx_val_of_single _ rfl j k
/-- The right index: its matrix is h … -/
theorem rhs_dot_0 (j : S800000x4x64.Idx) (k : dot_S800000x64_S4x64x64_S800000x4x64_1_2_0_01_n_n.contr.Idx) :
    (dot_S800000x64_S4x64x64_S800000x4x64_1_2_0_01_n_n.rhsIdx j k 0).val = (j 1).val := rfl
/-- … its row is f … -/
theorem rhs_dot_1 (j : S800000x4x64.Idx) (k : dot_S800000x64_S4x64x64_S800000x4x64_1_2_0_01_n_n.contr.Idx) :
    (dot_S800000x64_S4x64x64_S800000x4x64_1_2_0_01_n_n.rhsIdx j k 1).val = (j 2).val := rfl
/-- … and its column is the contraction position. -/
theorem rhs_dot_2 (j : S800000x4x64.Idx) (k : dot_S800000x64_S4x64x64_S800000x4x64_1_2_0_01_n_n.contr.Idx) :
    (dot_S800000x64_S4x64x64_S800000x4x64_1_2_0_01_n_n.rhsIdx j k 2).val = (k ⟨0, by decide⟩).val :=
  DotDims.rhsIdx_val_of_single _ rfl j k

/-- The contraction of the target rows with the matrices: entry (e, h, f) is Σ_g T(e,g) · W(h,f,g). -/
theorem dot_read (T : FVec Ideal S800000x64 .f32) (W : FVec Ideal S4x64x64 .f32) (e : Fin 800000) (h : Fin 4) (f : Fin 64) :
    Host.dotGeneral (F := Ideal) dot_S800000x64_S4x64x64_S800000x4x64_1_2_0_01_n_n none T W (ix3 e h f)
      = ∑ g : Fin 64, T (ix2 e g) * W (ix3 h f g) := by
  simp only [Host.dotGeneral]
  rw [Ideal.dotGeneral_apply,
    ← Equiv.sum_comp (contrEquiv1 dot_S800000x64_S4x64x64_S800000x4x64_1_2_0_01_n_n 64 rfl rfl).symm]
  refine Finset.sum_congr rfl fun g _ => ?_
  have hk := contrEquiv1_symm_val dot_S800000x64_S4x64x64_S800000x4x64_1_2_0_01_n_n 64 rfl rfl g
  congr 1
  · refine congrArg T (funext fun a => Fin.ext ?_)
    match a with
    | ⟨0, _⟩ => exact lhs_dot_0 _ _
    | ⟨1, _⟩ => exact (lhs_dot_1 _ _).trans hk
  · refine congrArg W (funext fun a => Fin.ext ?_)
    match a with
    | ⟨0, _⟩ => exact rhs_dot_0 _ _
    | ⟨1, _⟩ => exact rhs_dot_1 _ _
    | ⟨2, _⟩ => exact (rhs_dot_2 _ _).trans hk

/-- The reference's sum at (e, h) — over f of the source row's entry times the contracted target row — is the
    specification's bilinear form of the source rows read as a matrix. -/
theorem sum_read (X : FVec Ideal S800000x1x64 .f32) (T : FVec Ideal S800000x64 .f32) (W : FVec Ideal S4x64x64 .f32)
    (e : Fin 800000) (h : Fin 4) :
    Host.reduceAdd (F := Ideal)
        (mulf (broadcastInDim S800000x4x64 ![0, 1, 2] bcast_S800000x1x64_S800000x4x64_0_1_2 X)
          (Host.dotGeneral (F := Ideal) dot_S800000x64_S4x64x64_S800000x4x64_1_2_0_01_n_n none T W))
        (constant (F := Ideal) S_ .f32 0x00000000#32) reducesTo_S800000x4x64_S800000x4_d2 h_S_ (ix2 e h)
      = Cert.Spec.form (n := 800000) (shapeCast S800000x64 X shapeCasts_S800000x1x64_S800000x64) T W e h := by
  rw [reduce_read]
  unfold Cert.Spec.form
  refine Finset.sum_congr rfl fun f _ => ?_
  rw [mulf_apply, bcast_read, dot_read, cast_read]

/-- The score array over arbitrary source rows, target rows and matrices. -/
theorem scores_eq (X : FVec Ideal S800000x1x64 .f32) (T : FVec Ideal S800000x64 .f32) (W : FVec Ideal S4x64x64 .f32) :
    select
      (cmpf .oge
        (Host.reduceAdd (F := Ideal)
          (mulf (broadcastInDim S800000x4x64 ![0, 1, 2] bcast_S800000x1x64_S800000x4x64_0_1_2 X)
            (Host.dotGeneral (F := Ideal) dot_S800000x64_S4x64x64_S800000x4x64_1_2_0_01_n_n none T W))
          (constant (F := Ideal) S_ .f32 0x00000000#32) reducesTo_S800000x4x64_S800000x4_d2 h_S_)
        (broadcastInDim S800000x4 ![] bcast_S_S800000x4 (constant (F := Ideal) S_ .f32 0x00000000#32)))
      (Host.reduceAdd (F := Ideal)
        (mulf (broadcastInDim S800000x4x64 ![0, 1, 2] bcast_S800000x1x64_S800000x4x64_0_1_2 X)
          (Host.dotGeneral (F := Ideal) dot_S800000x64_S4x64x64_S800000x4x64_1_2_0_01_n_n none T W))
        (constant (F := Ideal) S_ .f32 0x00000000#32) reducesTo_S800000x4x64_S800000x4_d2 h_S_)
      (mulf (broadcastInDim S800000x4 ![] bcast_S_S800000x4 (id (constant (F := Ideal) S_ .f32 0x3E4CCCCD#32)))
        (Host.reduceAdd (F := Ideal)
          (mulf (broadcastInDim S800000x4x64 ![0, 1, 2] bcast_S800000x1x64_S800000x4x64_0_1_2 X)
            (Host.dotGeneral (F := Ideal) dot_S800000x64_S4x64x64_S800000x4x64_1_2_0_01_n_n none T W))
          (constant (F := Ideal) S_ .f32 0x00000000#32) reducesTo_S800000x4x64_S800000x4_d2 h_S_))
      = Cert.Spec.score (n := 800000) (shapeCast S800000x64 X shapeCasts_S800000x1x64_S800000x64) T W := by
  funext j
  obtain ⟨e, h, rfl⟩ : ∃ (e : Fin 800000) (h : Fin 4), j = ix2 e h := ⟨j 0, j 1, eq_ix2 j⟩
  unfold Cert.Spec.score Cert.Spec.leaky
  rw [select_apply, cmpf_apply, mulf_apply, bcast0_read, bcast0_read, sum_read]
  simp only [id, constant_apply]

/-- The reference's score array is the specification's score of the gathered rows and the metric matrices. -/
theorem scoresR_eq (a0 : FVec Ideal S50000x1x64 .f32) (a1 : IVec S2x800000 32) (a2 : FVec Ideal S1x4x64x64 .f32) :
    Terms.scoresR a0 a1 a2
      = Cert.Spec.score (n := 800000) (Terms.xsrc2 a0 a1) (Terms.xtrg2 a0 a1) (Terms.w3 a2) := by
  unfold Terms.scoresR Terms.xsrc2
  exact scores_eq _ _ _

end Cert.ReferenceIdeal.Scores

end
-- ==== Proof.Bridge.lean ====
/-
  The two programs' named values are the same functions of the arguments: the index vectors, the gathered rows, the
  matrices and the neighbourhood softmax are the same operations in both programs, and the reference's scores are
  the specification's scores of the gathered rows — which is what the kernel's region leaves.
-/
import proofs.«109078_j61873298866223_1_alg».proof.Proof.KerTerms
import proofs.«109078_j61873298866223_1_alg».proof.Proof.RefTerms
import proofs.«109078_j61873298866223_1_alg».proof.Proof.RefScores

noncomputable section

namespace Cert.Bridge

open Idealize.ShloMosaic

abbrev K0 := FVec Ideal Cert.KernelIdeal.S50000x1x64 .f32
abbrev K1 := IVec Cert.KernelIdeal.S2x800000 32
abbrev K2 := FVec Ideal Cert.KernelIdeal.S1x4x64x64 .f32

theorem trg_eq (a1 : K1) : Cert.ReferenceIdeal.Terms.trg a1 = Cert.KernelIdeal.Terms.trg a1 := rfl
theorem src_eq (a1 : K1) : Cert.ReferenceIdeal.Terms.src a1 = Cert.KernelIdeal.Terms.src a1 := rfl
theorem norm_eq (i : IVec Cert.KernelIdeal.S800000 32) : Cert.ReferenceIdeal.Terms.norm i = Cert.KernelIdeal.Terms.norm i := rfl
theorem xsrc_eq (a0 : K0) (a1 : K1) : Cert.ReferenceIdeal.Terms.xsrc a0 a1 = Cert.KernelIdeal.Terms.xsrc a0 a1 := rfl
theorem xsrc2_eq (a0 : K0) (a1 : K1) : Cert.ReferenceIdeal.Terms.xsrc2 a0 a1 = Cert.KernelIdeal.Terms.xsrc2 a0 a1 := rfl
theorem xtrg2_eq (a0 : K0) (a1 : K1) : Cert.ReferenceIdeal.Terms.xtrg2 a0 a1 = Cert.KernelIdeal.Terms.xtrg2 a0 a1 := rfl
theorem w3_eq (a2 : K2) : Cert.ReferenceIdeal.Terms.w3 a2 = Cert.KernelIdeal.Terms.w3 a2 := rfl
theorem tail_eq (s : FVec Ideal Cert.KernelIdeal.S800000x4 .f32) (t : IVec Cert.KernelIdeal.S800000 32) :
    Cert.ReferenceIdeal.Terms.tail s t = Cert.KernelIdeal.Terms.tail s t := rfl

/-- The reference's first result is the kernel program's, as functions of the arguments. -/
theorem out_eq (a0 : K0) (a1 : K1) (a2 : K2) :
    Cert.ReferenceIdeal.Terms.out a0 a1 a2 = Cert.KernelIdeal.Terms.out a0 a1 a2 := by
  unfold Cert.ReferenceIdeal.Terms.out Cert.KernelIdeal.Terms.out Cert.KernelIdeal.Terms.scoresK
  rw [Cert.ReferenceIdeal.Scores.scoresR_eq, xsrc2_eq, xtrg2_eq, w3_eq, trg_eq, tail_eq]

end Cert.Bridge

end
-- ==== Proof.lean ====
/-
  The certificate's five claims for the attention-score kernel against its reference.

  Both programs gather the source and the target nodes' feature rows for each of the 800000 edges, form for each
  edge `e` and head `h` the bilinear score  Σ_f xs(e,f) · Σ_g xt(e,g) · w(h,f,g),  pass it through the leaky rectifier
  with slope word 0x3E4CCCCD, and take the neighbourhood softmax over the edges that share a target node. The kernel
  computes the scores in a region of 100 blocks of 8000 edges (a matrix product per head, a product with the source
  rows and a row sum); the reference computes them by one contraction over all edges, a product and a sum over the
  feature axis. At the extended reals the two score arrays are the same sums of the same products, index by index,
  with no use of finiteness; everything before and after the scores is the same operations in both programs.

  The kernel's two frames are the generated ones; the reference's frame is its run with the results dropped; the
  idealization rewrote nothing, so `preserves` is trivial; `algebraic` pairs the two runs over the named terms.
-/
import proofs.«109078_j61873298866223_1_alg».proof.Defs
import proofs.«109078_j61873298866223_1_alg».proof.Proof.Gen.Kernel
import proofs.«109078_j61873298866223_1_alg».proof.Proof.Gen.Kernel.Frame
import proofs.«109078_j61873298866223_1_alg».proof.Proof.Gen.KernelIdeal
import proofs.«109078_j61873298866223_1_alg».proof.Proof.Gen.KernelIdeal.Frame
import proofs.«109078_j61873298866223_1_alg».proof.Proof.Gen.ReferenceIdeal
import proofs.«109078_j61873298866223_1_alg».proof.Proof.Gen.Pre_finite_inputs
import proofs.«109078_j61873298866223_1_alg».proof.Proof.KerRun
import proofs.«109078_j61873298866223_1_alg».proof.Proof.RefRun
import proofs.«109078_j61873298866223_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its run's post with the two results dropped. -/
theorem frame_ri : Cert.frame_ReferenceIdeal := fun m ρ _ =>
  (θ_run Cert.ReferenceIdeal.defs _ _).mono (fun _ h c => (h c).2.2) (Cert.ReferenceIdeal.Run.run m ρ)

/-- Both runs end with the softmax of the same score array and with the same gathered source rows. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono
    (fun _ h c => ⟨(h c).1.trans ?_, (h c).2.1.trans ?_, (h c).2.2⟩) (Cert.ReferenceIdeal.Run.run m' ρ')
  · rw [(hagree c).1, (hagree c).2.1, (hagree c).2.2]
    exact Cert.Bridge.out_eq _ _ _
  · rw [(hagree c).1, (hagree c).2.1]
    exact Cert.Bridge.xsrc_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
